-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8192x128 : Shape := ⟨3, ![32, 8192, 128]⟩
abbrev S_ : Shape := ⟨0, ![]⟩

class Facts : Prop where
  bcast_S_S32x8192x128 : S_.BroadcastsInDim S32x8192x128 (![] : Fin 0 → Fin S32x8192x128.rank)
  reducesTo_S32x8192x128_S_d0_1_2 : S32x8192x128.ReducesTo [0, 1, 2] S_
  h_S_ : 0 < S_.numel

variable [Facts]

def fn {F : FTy → Type} [FloatOps F] (main_arg0 : FVec F S32x8192x128 .f32) : IVec S_ 1 :=
  let main_v0 : FVec F S32x8192x128 .f32 := Host.absf main_arg0
  let main_cst : FVec F S_ .f32 := constant S_ .f32 0x7F800000#32
  let main_v1 : FVec F S32x8192x128 .f32 := broadcastInDim S32x8192x128 ![] bcast_S_S32x8192x128 main_cst
  let main_v2 : IVec S32x8192x128 1 := cmpf .olt main_v0 main_v1
  let main_c : IVec S_ 1 := constantI S_ 1 1#1
  let main_v3 : IVec S_ 1 := (fun x v => Host.reduce IntOp.andi x v reducesTo_S32x8192x128_S_d0_1_2 h_S_) main_v2 main_c
  main_v3
-- ==== Kernel.lean ====
abbrev S32x8192x128 : Shape := ⟨3, ![32, 8192, 128]⟩
abbrev S32x1x128 : Shape := ⟨3, ![32, 1, 128]⟩
abbrev S1x1 : Shape := ⟨2, ![1, 1]⟩
abbrev S1x8192x128 : Shape := ⟨3, ![1, 8192, 128]⟩
abbrev S1x1x128 : Shape := ⟨3, ![1, 1, 128]⟩
abbrev S1x1x8192x128 : Shape := ⟨4, ![1, 1, 8192, 128]⟩
abbrev S1 : Shape := ⟨1, ![1]⟩
abbrev S1x1x1x1 : Shape := ⟨4, ![1, 1, 1, 1]⟩
abbrev S1x128 : Shape := ⟨2, ![1, 128]⟩
abbrev S_ : Shape := ⟨0, ![]⟩

abbrev nBuf : Space → Nat
  | .hbm => 17
  | .vmem => 6
  | .smem => 0
  | _ => 0

abbrev bufTy : (tb : Table) → Fin (tcTables nBuf tb) → BufTy
  | .hbm, ⟨0, _⟩ => ⟨S32x8192x128, .f32⟩
  | .hbm, ⟨1, _⟩ => ⟨S32x1x128, .f32⟩
  | .hbm, ⟨2, _⟩ => ⟨S1x1, .f32⟩
  | .hbm, ⟨3, _⟩ => ⟨S_, .f32⟩
  | .hbm, ⟨4, _⟩ => ⟨S32x1x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S1x8192x128, .f32⟩
  | .local _ .vmem, ⟨1, _⟩ => ⟨S1x8192x128, .f32⟩
  | .local _ .vmem, ⟨2, _⟩ => ⟨S1x1x128, .f32⟩
  | .local _ .vmem, ⟨3, _⟩ => ⟨S1x1x128, .f32⟩
  | .local _ .vmem, ⟨4, _⟩ => ⟨S1x1, .f32⟩
  | .local _ .vmem, ⟨5, _⟩ => ⟨S1x1, .f32⟩
  | _, _ => ⟨S32x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v18 : BitVec 1 := Scalar.cmpi .eq arg0 c31_i32
  let v19 : BitVec 32 := Scalar.extui v18
  let c0_i32_11 : BitVec 32 := 0#32
  let v20 : BitVec 1 := Scalar.cmpi .ne v19 c0_i32_11
  v20

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x8192x128_S1x8192x128_0_0_0 : ∀ a, (![0, 0, 0] : Fin 3 → Nat) a + S1x8192x128.size a ≤ S1x8192x128.size a
  h_S1x8192x128 : 0 < S1x8192x128.numel
  shapeCasts_S1x8192x128_S1x1x8192x128 : S1x8192x128.ShapeCasts S1x1x8192x128
  reduces_S1x1x8192x128_S1 : S1x1x8192x128.Reduces [1, 2, 3] S1
  shapeCasts_S1_S1x1x1x1 : S1.ShapeCasts S1x1x1x1
  inpos_S1x1x1x1_p0_0_0_0 : ∀ a, (![0, 0, 0, 0] : Fin 4 → Nat) a < S1x1x1x1.size a
  reduces_S1x8192x128_S1x128 : S1x8192x128.Reduces [1] S1x128
  shapeCasts_S1x128_S1x1x128 : S1x128.ShapeCasts S1x1x128
  inb_S1x1x128_S1x1x128_0_0_0 : ∀ a, (![0, 0, 0] : Fin 3 → Nat) a + S1x1x128.size a ≤ S1x1x128.size a
  h_S1x1x128 : 0 < S1x1x128.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S1x1_S_ : S1x1.ShapeCasts S_
  reducesTo_S32x1x128_S_d0_1_2 : S32x1x128.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192x128.size a ≤ S32x8192x128.size a
  hwx0_0 : ∀ i : grid0.Coords, EltTy.bits .f32 = 32 ∨ (Rect.block (s := S32x8192x128) S1x8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x128.size a ≤ S32x1x128.size a
  hwx0_1 : ∀ i : grid0.Coords, EltTy.bits .f32 = 32 ∨ (Rect.block (s := S32x1x128) S1x1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S1x8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x1x128.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S32x8192x128 : Shape := ⟨3, ![32, 8192, 128]⟩
abbrev S_ : Shape := ⟨0, ![]⟩
abbrev S32x128 : Shape := ⟨2, ![32, 128]⟩

abbrev nBuf : Space → Nat
  | .hbm => 19
  | .vmem => 0
  | .smem => 0
  | _ => 0

abbrev bufTy : (tb : Table) → Fin (tcTables nBuf tb) → BufTy
  | .hbm, ⟨0, _⟩ => ⟨S32x8192x128, .f32⟩
  | .hbm, ⟨1, _⟩ => ⟨S32x8192x128, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S32x128, .f32⟩
  | .hbm, ⟨6, _⟩ => ⟨S_, .f32⟩
  | .hbm, ⟨7, _⟩ => ⟨S_, .f32⟩
  | .hbm, ⟨8, _⟩ => ⟨S32x128, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | _, _ => ⟨S32x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_cst_1 : Ref sig .tc := ⟨.hbm, 6, rfl⟩
abbrev main_v3 : Ref sig .tc := ⟨.hbm, 7, rfl⟩
abbrev main_v4 : Ref sig .tc := ⟨.hbm, 8, rfl⟩
abbrev main_cst_2 : Ref sig .tc := ⟨.hbm, 9, rfl⟩
abbrev main_v5 : Ref sig .tc := ⟨.hbm, 10, rfl⟩
abbrev main_cst_3 : Ref sig .tc := ⟨.hbm, 11, rfl⟩
abbrev main_v6 : Ref sig .tc := ⟨.hbm, 12, rfl⟩
abbrev main_v7 : Ref sig .tc := ⟨.hbm, 13, rfl⟩
abbrev main_cst_4 : Ref sig .tc := ⟨.hbm, 14, rfl⟩
abbrev main_v8 : Ref sig .tc := ⟨.hbm, 15, rfl⟩
abbrev main_cst_5 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]

class Facts₀ : Prop where
  reducesTo_S32x8192x128_S_d0_1_2 : S32x8192x128.ReducesTo [0, 1, 2] S_
  h_S_ : 0 < S_.numel
  reducesTo_S32x8192x128_S32x128_d1 : S32x8192x128.ReducesTo [1] S32x128
  reducesTo_S32x128_S_d0_1 : S32x128.ReducesTo [0, 1] S_

variable [Facts₀]

class Facts : Prop extends Facts₀ where

variable [Facts]
-- ==== Proof.Pieces.lean ====
/-
  What one run of the kernel body leaves in its buffers, as VALUES of the blocks it was given.

  The body loads the whole [1, 8192, 128] input block `x`, and
    · stores into the [1, 1, 128] output block the column sums of `x` over its 8192 rows (`k0_pay1 x`), at every point;
    · at the first point stores zero into the [1, 1] scratch (`k0_pay2`);
    · loads the scratch `s` and stores back `s` plus the sum of the squares of every entry of `x` (`k0_pay3 x s`);
    · at the last point copies the scratch, as just updated, into the [1, 1] second output block.
  Each store covers its whole buffer, so what a buffer holds afterwards is the last store's payload, with every load
  that fed it read through the stores before it: at the first point the scratch update reads the zero it has just
  stored; at the last point the copy reads the update. The three control cases are A (first point), B (a middle
  point), C (last point); nothing here depends on the float instance.
-/
import proofs.«100261_j89867895702076_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## The column-sum block: the same in every case -/

/-- First point: the output block holds the column sums of the input block. -/
theorem out_A_1 (c : Dev nD) (i : grid0.Coords) (a1 : Memref sig .tc .vmem S1x8192x128 .f32) (h1 : a1.IsWhole)
    (a2 : Memref sig .tc .vmem S1x1x128 .f32) (h2 : a2.IsWhole) (a3 : Memref sig .tc .vmem S1x1 .f32) (h3 : a3.IsWhole)
    (a4 : Memref sig .tc .vmem S1x1 .f32) (h4 : a4.IsWhole) (hc0 : cond0_0 i) (hc1 : ¬cond0_1 i)
    (x0 : Vec F S1x8192x128 .f32) :
    out0_A_1 c i a1 h1 a2 h2 a3 h3 a4 h4 hc0 hc1 x0 = k0_pay1 x0 := by
  unfold out0_A_1
  rw [View.read_writes_eq_canon _ _ _ (cover0_A_1 c i a1 h1 a2 h2 a3 h3 a4 h4 hc0 hc1 x0)]
  unfold kernelRun0_A
  dsimp only
  sl_unfold_words
  rw [View.canon_unit_zero hz3]
  simp only [View.readAt_eq_ld, h1.read_unread, View.ld_unit_zero (S := S1x8192x128) hz3]

/-- A middle point: the same. -/
theorem out_B_1 (c : Dev nD) (i : grid0.Coords) (a1 : Memref sig .tc .vmem S1x8192x128 .f32) (h1 : a1.IsWhole)
    (a2 : Memref sig .tc .vmem S1x1x128 .f32) (h2 : a2.IsWhole) (a3 : Memref sig .tc .vmem S1x1 .f32) (h3 : a3.IsWhole)
    (a4 : Memref sig .tc .vmem S1x1 .f32) (h4 : a4.IsWhole) (hc0 : ¬cond0_0 i) (hc1 : ¬cond0_1 i)
    (x0 : Vec F S1x8192x128 .f32) (xs0 : Vec F S1x1 .f32) :
    out0_B_1 c i a1 h1 a2 h2 a3 h3 a4 h4 hc0 hc1 x0 xs0 = k0_pay1 x0 := by
  unfold out0_B_1
  rw [View.read_writes_eq_canon _ _ _ (cover0_B_1 c i a1 h1 a2 h2 a3 h3 a4 h4 hc0 hc1 x0 xs0)]
  unfold kernelRun0_B
  dsimp only
  sl_unfold_words
  rw [View.canon_unit_zero hz3]
  simp only [View.readAt_eq_ld, h1.read_unread, View.ld_unit_zero (S := S1x8192x128) hz3]

/-- The last point: the same. -/
theorem out_C_1 (c : Dev nD) (i : grid0.Coords) (a1 : Memref sig .tc .vmem S1x8192x128 .f32) (h1 : a1.IsWhole)
    (a2 : Memref sig .tc .vmem S1x1x128 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 : Vec F S1x8192x128 .f32) (xs0 : Vec F S1x1 .f32) :
    out0_C_1 c i a1 h1 a2 h2 a3 h3 a4 h4 hc0 hc1 x0 xs0 = k0_pay1 x0 := by
  unfold out0_C_1
  rw [View.read_writes_eq_canon _ _ _ (cover0_C_1 c i a1 h1 a2 h2 a3 h3 a4 h4 hc0 hc1 x0 xs0)]
  unfold kernelRun0_C
  dsimp only
  sl_unfold_words
  rw [View.canon_unit_zero hz3]
  simp only [View.readAt_eq_ld, h1.read_unread, View.ld_unit_zero (S := S1x8192x128) hz3]

/-! ## The scratch: the running sum of squares -/

/-- First point: the scratch is reset to zero and then updated, so it holds zero plus this block's sum of squares. -/
theorem sout_A (c : Dev nD) (i : grid0.Coords) (a1 : Memref sig .tc .vmem S1x8192x128 .f32) (h1 : a1.IsWhole)
    (a2 : Memref sig .tc .vmem S1x1x128 .f32) (h2 : a2.IsWhole) (a3 : Memref sig .tc .vmem S1x1 .f32) (h3 : a3.IsWhole)
    (a4 : Memref sig .tc .vmem S1x1 .f32) (h4 : a4.IsWhole) (hc0 : cond0_0 i) (hc1 : ¬cond0_1 i)
    (x0 : Vec F S1x8192x128 .f32) :
    sout0_A_0 c i a1 h1 a2 h2 a3 h3 a4 h4 hc0 hc1 x0 = k0_pay3 x0 (k0_pay2 (F := F)) := by
  unfold sout0_A_0
  rw [View.read_writes_eq_canon _ _ _ (scover0_A_0 c i a1 h1 a2 h2 a3 h3 a4 h4 hc0 hc1 x0)]
  unfold kernelRun0_A
  dsimp only
  sl_unfold_words
  rw [View.canon_cons_unit_zero (S := S1x1) hz2, View.readCov_unit_zero (S := S1x1) _ hz2]
  simp only [View.readAt_eq_ld, h1.read_unread, View.ld_unit_zero (S := S1x8192x128) hz3]

/-- A middle point: what the point before left, plus this block's sum of squares. -/
theorem sout_B (c : Dev nD) (i : grid0.Coords) (a1 : Memref sig .tc .vmem S1x8192x128 .f32) (h1 : a1.IsWhole)
    (a2 : Memref sig .tc .vmem S1x1x128 .f32) (h2 : a2.IsWhole) (a3 : Memref sig .tc .vmem S1x1 .f32) (h3 : a3.IsWhole)
    (a4 : Memref sig .tc .vmem S1x1 .f32) (h4 : a4.IsWhole) (hc0 : ¬cond0_0 i) (hc1 : ¬cond0_1 i)
    (x0 : Vec F S1x8192x128 .f32) (xs0 : Vec F S1x1 .f32) :
    sout0_B_0 c i a1 h1 a2 h2 a3 h3 a4 h4 hc0 hc1 x0 xs0 = k0_pay3 x0 xs0 := by
  unfold sout0_B_0
  rw [View.read_writes_eq_canon _ _ _ (scover0_B_0 c i a1 h1 a2 h2 a3 h3 a4 h4 hc0 hc1 x0 xs0)]
  unfold kernelRun0_B
  dsimp only
  sl_unfold_words
  rw [View.canon_unit_zero hz2]
  simp only [View.readAt_eq_ld, h1.read_unread, h4.read_unread, View.ld_unit_zero (S := S1x8192x128) hz3,
    View.ld_unit_zero (S := S1x1) hz2]

/-- The last point: the same update. -/
theorem sout_C (c : Dev nD) (i : grid0.Coords) (a1 : Memref sig .tc .vmem S1x8192x128 .f32) (h1 : a1.IsWhole)
    (a2 : Memref sig .tc .vmem S1x1x128 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 : Vec F S1x8192x128 .f32) (xs0 : Vec F S1x1 .f32) :
    sout0_C_0 c i a1 h1 a2 h2 a3 h3 a4 h4 hc0 hc1 x0 xs0 = k0_pay3 x0 xs0 := by
  unfold sout0_C_0
  rw [View.read_writes_eq_canon _ _ _ (scover0_C_0 c i a1 h1 a2 h2 a3 h3 a4 h4 hc0 hc1 x0 xs0)]
  unfold kernelRun0_C
  dsimp only
  sl_unfold_words
  rw [View.canon_unit_zero hz2]
  simp only [View.readAt_eq_ld, h1.read_unread, h4.read_unread, View.ld_unit_zero (S := S1x8192x128) hz3,
    View.ld_unit_zero (S := S1x1) hz2]

/-! ## The scalar output: written at the last point only -/

/-- The last point copies the updated scratch into the second output block. -/
theorem out_C_2 (c : Dev nD) (i : grid0.Coords) (a1 : Memref sig .tc .vmem S1x8192x128 .f32) (h1 : a1.IsWhole)
    (a2 : Memref sig .tc .vmem S1x1x128 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 : Vec F S1x8192x128 .f32) (xs0 : Vec F S1x1 .f32) :
    out0_C_2 c i a1 h1 a2 h2 a3 h3 a4 h4 hc0 hc1 x0 xs0 = k0_pay3 x0 xs0 := by
  unfold out0_C_2
  rw [View.read_writes_eq_canon _ _ _ (cover0_C_2 c i a1 h1 a2 h2 a3 h3 a4 h4 hc0 hc1 x0 xs0)]
  unfold kernelRun0_C
  dsimp only
  sl_unfold_words
  rw [View.canon_unit_zero hz2]
  simp only [View.readAt_eq_ld, h1.read_unread, h4.read_unread, View.ld_unit_zero (S := S1x8192x128) hz3,
    View.ld_unit_zero (S := S1x1) hz2, View.readCov_unit_zero (S := S1x1) _ hz2]

end Cert.KernelIdeal.Pieces

end
-- ==== Proof.Acc.lean ====
/-
  What the kernel's buffers hold after each grid point, by induction on the point.

  The grid has 32 points, one per batch slab. Write `xₙ` for the [1, 8192, 128] input block of point `n`. After
  point `n`
    · the first output's staging buffer holds the column sums of `xₙ` (it does not depend on earlier points);
    · the scratch holds the running sum of squares: zero plus the sum of squares of `x₀` after point 0, and what it
      held after point `n − 1` plus the sum of squares of `xₙ` after point `n ≥ 1`;
    · at the last point the second output's staging buffer holds that running sum too.
  The running sum is a recursion on the point, not an enumeration of the 32 points.
-/
import proofs.«100261_j89867895702076_1_alg».proof.Proof.Pieces

noncomputable section

open Idealize.ShloMosaic Idealize.ShloMosaic.TcCoe Idealize.SL.Sem

namespace Cert.KernelIdeal.Acc

open Cert.KernelIdeal Cert.KernelIdeal.Gen

variable {F : FTy → Type} [FloatOps F]
variable (m : (ℓ : Loc nD τ sig) → Buf (Elt F) ℓ)

/-- The input block of point `t`, at its literal type. -/
abbrev xblk (c : Dev nD) (t : Fin cfg0.N) : Vec F S1x8192x128 .f32 := iblk m c 0 t

/-- The running sum of squares held by the scratch after point `n`. -/
def acc (c : Dev nD) : (n : ℕ) → n < cfg0.N → Vec F S1x1 .f32
  | 0, h => k0_pay3 (xblk m c ⟨0, h⟩) (k0_pay2 (F := F))
  | n + 1, h => k0_pay3 (xblk m c ⟨n + 1, h⟩) (acc c n (Nat.lt_of_succ_lt h))

theorem acc_zero (c : Dev nD) (h : 0 < cfg0.N) : acc m c 0 h = k0_pay3 (xblk m c ⟨0, h⟩) (k0_pay2 (F := F)) := rfl
theorem acc_succ (c : Dev nD) (n : ℕ) (h : n + 1 < cfg0.N) :
    acc m c (n + 1) h = k0_pay3 (xblk m c ⟨n + 1, h⟩) (acc m c n (Nat.lt_of_succ_lt h)) := rfl

/-- After every point the first output's buffer holds the column sums of that point's input block. -/
theorem col_eq (c : Dev nD) (t : Fin cfg0.N) : (outsAt0 m c t.val t.isLt).1 = k0_pay1 (xblk m c t) := by
  have hN : t.val < 32 := lt_of_lt_of_eq t.isLt (show cfg0.N = 32 from N_0)
  by_cases h0 : t.val % 32 = 0
  · have h1 : ¬t.val % 32 = 31 := by omega
    rw [outsAt0_A m c t h0 h1]; dsimp only
    exact Pieces.out_A_1 ..
  · by_cases h1 : t.val % 32 = 31
    · rw [outsAt0_C m c t h0 h1]; dsimp only
      exact Pieces.out_C_1 ..
    · rw [outsAt0_B m c t h0 h1]; dsimp only
      exact Pieces.out_B_1 ..

/-- After point `n` the scratch holds the running sum of squares. -/
theorem scr_eq (c : Dev nD) : ∀ (n : ℕ) (h : n < cfg0.N), (outsAt0 m c n h).2.2 = acc m c n h
  | 0, h => by
    rw [outsAt0_A m c ⟨0, h⟩ rfl (by show ¬0 % 32 = 31; decide)]; dsimp only
    exact Pieces.sout_A ..
  | n + 1, h => by
    have hN : n + 1 < 32 := lt_of_lt_of_eq h (show cfg0.N = 32 from N_0)
    have h0 : ¬(⟨n + 1, h⟩ : Fin cfg0.N).val % 32 = 0 := by dsimp only; omega
    by_cases h1 : (⟨n + 1, h⟩ : Fin cfg0.N).val % 32 = 31
    · rw [outsAt0_C m c ⟨n + 1, h⟩ h0 h1]; dsimp only
      rw [Pieces.sout_C]
      show k0_pay3 _ (outsAt0 m c n _).2.2 = k0_pay3 _ (acc m c n _)
      rw [scr_eq c n]
    · rw [outsAt0_B m c ⟨n + 1, h⟩ h0 h1]; dsimp only
      rw [Pieces.sout_B]
      show k0_pay3 _ (outsAt0 m c n _).2.2 = k0_pay3 _ (acc m c n _)
      rw [scr_eq c n]

/-- At the last point the second output's buffer holds the running sum of squares as well. -/
theorem last_eq (c : Dev nD) : ∀ (n : ℕ) (h : n < cfg0.N), n % 32 = 31 → (outsAt0 m c n h).2.1 = acc m c n h
  | 0, h => fun h1 => absurd h1 (by decide)
  | n + 1, h => fun h1 => by
    have hN : n + 1 < 32 := lt_of_lt_of_eq h (show cfg0.N = 32 from N_0)
    have h0 : ¬(⟨n + 1, h⟩ : Fin cfg0.N).val % 32 = 0 := by dsimp only; omega
    rw [outsAt0_C m c ⟨n + 1, h⟩ h0 h1]; dsimp only
    rw [Pieces.out_C_2]
    show k0_pay3 _ (outsAt0 m c n _).2.2 = k0_pay3 _ (acc m c n _)
    rw [scr_eq m c n]

end Cert.KernelIdeal.Acc

end
-- ==== Proof.Arrays.lean ====
/-
  The two output arrays after the region, each as one function of the blocks the body was given.

  The first output is a [32, 1, 128] array written one [1, 1, 128] block per grid point: point `t` writes block
  `(t, 0, 0)`, the column sums of input block `t`. Every index `(b, 0, d)` of the array lies in the block of point
  `b`, so after the run the array holds, at `(b, 0, d)`, entry `(0, 0, d)` of the column sums of input block `b`.
  The second output is a [1, 1] array with a single block, written back once, after the last point, when its staging
  buffer holds the running sum of squares over all 32 points: that is what the array ends holding.
-/
import proofs.«100261_j89867895702076_1_alg».proof.Proof.Acc
import Idealize.ShloMosaic.Lib.ValueIdx

noncomputable section

open Idealize.ShloMosaic Idealize.ShloMosaic.TcCoe Idealize.SL.Sem
open Idealize.ShloMosaic.Pipeline (Dat)

namespace Cert.KernelIdeal.Arrays

open Cert.KernelIdeal Cert.KernelIdeal.Gen Cert.KernelIdeal.Acc Idealize.ShloMosaic.ValueIdx

variable {F : FTy → Type} [FloatOps F]
variable (m : (ℓ : Loc nD τ sig) → Buf (Elt F) ℓ)

/-- The grid point of batch coordinate `b`. -/
def pt (b : Fin 32) : Fin cfg0.N := ⟨b.val, lt_of_lt_of_eq b.isLt N_0.symm⟩

/-- The last grid point. -/
abbrev tlast : Fin cfg0.N := pt 31

/-- The printed index maps, decided over the grid: the first output's block index is `(t, 0, 0)`, the second's `(0, 0)`. -/
theorem idx_facts : ∀ t : Fin cfg0.N, win0_1.index t (0 : Fin 3) = t.val ∧ win0_1.index t (1 : Fin 3) = 0
    ∧ win0_1.index t (2 : Fin 3) = 0 ∧ win0_2.index t (0 : Fin 2) = 0 ∧ win0_2.index t (1 : Fin 2) = 0 :=
  (by decide +kernel : ∀ t : Fin grid0.N, _)

/-! ## The column sums -/

/-- The first output array: at `(b, 0, d)`, the column sum `d` of input block `b`. -/
def cols (c : Dev nD) : Buf (Elt F) ((c : Thread nD τ).loc main_v0_0) :=
  fun (j : S32x1x128.Idx) => k0_pay1 (xblk m c (pt (j 0))) (ix3 0 0 (j 2))

/-- What point `t` writes back is block `t` of that array. -/
theorem flushed1_eq (c : Dev nD) (t : Fin cfg0.N) :
    (dats m 0 c).flushed 1 t = ((cfg0.win 1).blk t).view.read (Elt F) (cols m c) := by
  show (cfg0.win 1).cut (grid0.coords t) ((dats m 0 c).after 1 t) = _
  rw [after0_1, col_eq]
  obtain ⟨e0, e1, e2, -, -⟩ := idx_facts t
  funext y
  show k0_pay1 (xblk m c t) y = k0_pay1 (xblk m c (pt ((((cfg0.win 1).blk t).view.emb y) 0))) (ix3 0 0 ((((cfg0.win 1).blk t).view.emb y) 2))
  have hy0 : (y 0).val < 1 := (y 0).isLt
  have hy1 : (y 1).val < 1 := (y 1).isLt
  have hp : pt ((((cfg0.win 1).blk t).view.emb y) 0) = t := Fin.ext (by
    show win0_1.index t (0 : Fin 3) * 1 + 1 * (y 0).val = t.val
    omega)
  rw [hp]
  congr 1
  funext a
  apply Fin.ext
  match a with
  | ⟨0, _⟩ => show (y 0).val = 0; omega
  | ⟨1, _⟩ => show (y 1).val = 0; omega
  | ⟨2, _⟩ => show (y 2).val = win0_1.index t (2 : Fin 3) * 128 + 1 * (y 2).val; omega

/-- An index of the array is in point `t`'s block iff each coordinate is in the block's range on its axis. -/
theorem mem_blk1 (t : Fin cfg0.N) (i : S32x1x128.Idx) :
    i ∈ ((cfg0.win 1).blk t).view.set ↔ ∀ a : Fin 3, win0_1.index t a * S1x1x128.size a ≤ (i a).val ∧ (i a).val < win0_1.index t a * S1x1x128.size a + S1x1x128.size a := by
  show i ∈ ((View.whole main_v0_0).slice (win0_1.rect t)).set ↔ _
  rw [View.set_slice_whole, Rect.mem_set_unit]
  exact Iff.rfl

/-- After the run the first output array is `cols`: the block of point `b` covers the indices `(b, 0, d)`. -/
theorem final1 (c : Dev nD) : (dats m 0 c).arrAt 1 cfg0.N = cols m c :=
  (dats m 0 c).arrAt_eq_of_cover 1 (cols m c) (fun t _ => flushed1_eq m c t) fun i => by
    refine ⟨pt (i 0), flush0_1 _, ?_⟩
    rw [mem_blk1]
    obtain ⟨e0, e1, e2, -, -⟩ := idx_facts (pt (i 0))
    have hi1 : (i 1).val < 1 := (i 1).isLt
    have hi2 : (i 2).val < 128 := (i 2).isLt
    intro a
    match a with
    | ⟨0, _⟩ => show win0_1.index (pt (i 0)) (0 : Fin 3) * 1 ≤ (i 0).val ∧ (i 0).val < win0_1.index (pt (i 0)) (0 : Fin 3) * 1 + 1; rw [e0]; show (i 0).val * 1 ≤ (i 0).val ∧ (i 0).val < (i 0).val * 1 + 1; omega
    | ⟨1, _⟩ => show win0_1.index (pt (i 0)) (1 : Fin 3) * 1 ≤ (i 1).val ∧ (i 1).val < win0_1.index (pt (i 0)) (1 : Fin 3) * 1 + 1; omega
    | ⟨2, _⟩ => show win0_1.index (pt (i 0)) (2 : Fin 3) * 128 ≤ (i 2).val ∧ (i 2).val < win0_1.index (pt (i 0)) (2 : Fin 3) * 128 + 128; omega

/-! ## The total of the squares -/

/-- The second output array: the running sum of squares after the last point. -/
def total (c : Dev nD) : Buf (Elt F) ((c : Thread nD τ).loc main_v0_1) := acc m c tlast.val tlast.isLt

/-- The one write-back of the second output, after the last point, writes that total. -/
theorem flushed2_eq (c : Dev nD) (t : Fin cfg0.N) (hf : (cfg0.win 2).flush t = true) :
    (dats m 0 c).flushed 2 t = ((cfg0.win 2).blk t).view.read (Elt F) (total m c) := by
  have h31 : t.val % 32 = 31 := (flush0_2 t).mp hf
  have hN : t.val < 32 := lt_of_lt_of_eq t.isLt (show cfg0.N = 32 from N_0)
  obtain rfl : t = tlast := Fin.ext (by show t.val = 31; omega)
  show (cfg0.win 2).cut (grid0.coords tlast) ((dats m 0 c).after 2 tlast) = _
  rw [after0_2, last_eq m c tlast.val tlast.isLt h31]
  obtain ⟨-, -, -, e3, e4⟩ := idx_facts tlast
  funext y
  show acc m c tlast.val tlast.isLt y = acc m c tlast.val tlast.isLt (((cfg0.win 2).blk tlast).view.emb y)
  congr 1
  funext a
  apply Fin.ext
  match a with
  | ⟨0, _⟩ => show (y 0).val = win0_2.index tlast (0 : Fin 2) * 1 + 1 * (y 0).val; omega
  | ⟨1, _⟩ => show (y 1).val = win0_2.index tlast (1 : Fin 2) * 1 + 1 * (y 1).val; omega

theorem mem_blk2 (t : Fin cfg0.N) (i : S1x1.Idx) :
    i ∈ ((cfg0.win 2).blk t).view.set ↔ ∀ a : Fin 2, win0_2.index t a * S1x1.size a ≤ (i a).val ∧ (i a).val < win0_2.index t a * S1x1.size a + S1x1.size a := by
  show i ∈ ((View.whole main_v0_1).slice (win0_2.rect t)).set ↔ _
  rw [View.set_slice_whole, Rect.mem_set_unit]
  exact Iff.rfl

/-- After the run the second output array is the total: its one block is the whole array. -/
theorem final2 (c : Dev nD) : (dats m 0 c).arrAt 2 cfg0.N = total m c :=
  (dats m 0 c).arrAt_eq_of_cover 2 (total m c) (flushed2_eq m c) fun i => by
    refine ⟨tlast, (flush0_2 tlast).mpr (by decide), ?_⟩
    rw [mem_blk2]
    obtain ⟨-, -, -, e3, e4⟩ := idx_facts tlast
    have hi0 : (i 0).val < 1 := (i 0).isLt
    have hi1 : (i 1).val < 1 := (i 1).isLt
    intro a
    match a with
    | ⟨0, _⟩ => show win0_2.index tlast (0 : Fin 2) * 1 ≤ (i 0).val ∧ (i 0).val < win0_2.index tlast (0 : Fin 2) * 1 + 1; omega
    | ⟨1, _⟩ => show win0_2.index tlast (1 : Fin 2) * 1 ≤ (i 1).val ∧ (i 1).val < win0_2.index tlast (1 : Fin 2) * 1 + 1; omega

end Cert.KernelIdeal.Arrays

end
-- ==== Proof.Loss.lean ====
/-
  The arithmetic both programs end with. From two scalars — `a`, the sum of the squares of every entry of the
  input, and `b`, the sum over (batch, feature) of the squared column sums — each program computes

      exp (c · ((16384 · a − 2 · b) / 2^25)),      c the f32 word 0xB089705F (the float nearest −1e−9),

  by the same six host operations on the same four literal words: the pairwise identity
  Σ_{i,j} (xᵢ − xⱼ)² = 2N · Σ xᵢ² − 2 · (Σ xᵢ)² with N = 8192 (so 2N = 16384), divided by
  B · N · D = 32 · 8192 · 128 = 2^25. Stated once, at any float instance, so that the equality of the two
  programs' results is the equality of their `a`s and of their `b`s and this function is never opened.
-/
import Idealize.ShloMosaic.PureOps

noncomputable section

namespace Cert.Loss

open Idealize.ShloMosaic

variable {F : FTy → Type} [FloatOps F]

/-- The shape of a scalar tensor. -/
abbrev Sc : Shape := ⟨0, ![]⟩

/-- exp (c · ((16384 · a − 2 · b) / 2^25)) as the host computes it, literal words kept as words. -/
def loss (a b : FVec F Sc .f32) : FVec F Sc .f32 :=
  Host.exp (mulf (constant Sc .f32 0xB089705F#32)
    (Host.divf (subf (mulf (constant Sc .f32 0x46800000#32) a) (mulf (constant Sc .f32 0x40000000#32) b))
      (constant Sc .f32 0x4C000000#32)))

end Cert.Loss

end
-- ==== Proof.KernelRun.lean ====
/-
  The idealized kernel's run, read as a value.

  After the region the first output array holds the column sums `cols` and the second the total of the squares
  `total` (the two final arrays of the region). The fourteen host operations that follow read only those two arrays:
  they reshape the [1, 1] total to a scalar `a`, square the column sums entry by entry and add them all up from zero
  into a scalar `b`, and then apply the closing arithmetic `loss a b`. So the program's result is
  `loss (reshape total) (0 + Σ cols²)`, and its argument array ends as it began. Any float instance.
-/
import proofs.«100261_j89867895702076_1_alg».proof.Proof.Arrays
import proofs.«100261_j89867895702076_1_alg».proof.Proof.Loss
import Idealize.ShloMosaic.Lib.StableHlo.Run
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.KRun

open Cert.KernelIdeal Cert.KernelIdeal.Gen Cert.KernelIdeal.Acc Cert.KernelIdeal.Arrays

variable {F : FTy → Type} [FloatOps F]
variable (m : (ℓ : Loc nD τ sig) → Buf (Elt F) ℓ) (ρ : Dev nD → PrngReg)

/-- The total of the squares as the scalar the host reads. -/
abbrev sumSq (c : Dev nD) : FVec F S_ .f32 := shapeCast S_ (total m c) shapeCasts_S1x1_S_

/-- The squared column sums added up from zero, as the host does it. -/
abbrev sumColSq (c : Dev nD) : FVec F S_ .f32 :=
  Host.reduceAdd (mulf (cols m c) (cols m c)) (constant S_ .f32 0x00000000#32) reducesTo_S32x1x128_S_d0_1_2 h_S_

/-- The host operations after the region, applied to the region's two output arrays. -/
theorem tail_eq (c : Dev nD) :
    Pipeline.afterTail₀ cfgs (dats m) 0 (V0 m) [hostOps1] c main_v9 = Cert.Loss.loss (sumSq m c) (sumColSq m c) := by
  unfold Pipeline.afterTail₀
  show StableHlo.after hostOps1 _ (Proc.devRef .tc main_v9) = _
  after_results
  have e1 : Pipeline.withArrays (cfgs 0).spec c (V0 m c) (fun w => (dats m 0 c).arrAt w (cfgs 0).N) (Proc.devRef .tc main_v0_0)
      = cols m c := (Pipeline.withArrays_arr spec0 launch0.win.arr_inj c _ _ 1).trans (final1 m c)
  have e2 : Pipeline.withArrays (cfgs 0).spec c (V0 m c) (fun w => (dats m 0 c).arrAt w (cfgs 0).N) (Proc.devRef .tc main_v0_1)
      = total m c := (Pipeline.withArrays_arr spec0 launch0.win.arr_inj c _ _ 2).trans (final2 m c)
  rw [e1, e2]
  rfl

/-- Every weakly fair execution terminates with the result at `loss (reshape total) (0 + Σ cols²)` and the argument
    array unchanged. -/
theorem run : θ_run defs (onTc (τ := τ) (main (F := F))) ⟨m, fun _ => 0, ρ⟩ fun r => ∀ c : Dev nD,
      r.2.mem ((c : Thread nD τ).loc main_v9) = Cert.Loss.loss (sumSq m c) (sumColSq m c)
      ∧ r.2.mem ((c : Thread nD τ).loc main_arg0) = m ((c : Thread nD τ).loc main_arg0) :=
  (θ_run defs _ _).mono (fun r h c =>
      ⟨((h c).2 main_v9 (Pipeline.mem_restRefs_of main_v9 rfl (by decide))).trans (tail_eq m c),
        ((h c).1 0).trans (((dats m 0 c).arrAt_in 0 rfl _).trans ((A_eq m c 0).trans (V_main_arg0 m c)))⟩)
    (run_main m ρ)

end Cert.KernelIdeal.KRun

end
-- ==== Proof.SumLaws.lean ====
/-
  Re-indexings of finite sums over index sets of small rank, in any additive commutative monoid (used at the
  extended reals, where `+` is commutative and associative although it does not cancel).

  An index of a rank-3 shape is its three coordinates, so a sum over the index set is the triple sum over the
  coordinate ranges (`sum_idx3`). Three consequences:
    · the sum over a [B, N, D] array is the sum over the batch coordinate `b` of the sums over the [1, N, D] slabs
      (`sum_slabs`): what lets a total be accumulated slab by slab;
    · a sum over [B, 1, D] of a function of the outer coordinates is the same sum over [B, D] (`sum_keepdim`): a
      reduction that keeps the reduced axis as a unit axis has the same entries as one that drops it;
    · a running total that starts at `z + u 0` and adds `u (n + 1)` at step `n + 1` is `z` plus the sum of the
      `u k` met so far (`chain_eq_sum`).
-/
import Idealize.ShloMosaic.Lib.ValueIdx

noncomputable section

open scoped BigOperators

namespace Cert.SumLaws

open Idealize.ShloMosaic Idealize.ShloMosaic.ValueIdx

variable {M : Type*} [AddCommMonoid M]

/-- A rank-3 index set is the product of its three coordinate ranges … -/
def idxEquiv3 {a b c : Nat} : (⟨3, ![a, b, c]⟩ : Shape).Idx ≃ Fin a × Fin b × Fin c where
  toFun i := (i 0, i 1, i 2)
  invFun p := ix3 p.1 p.2.1 p.2.2
  left_inv i := (eq_ix3 i).symm
  right_inv _ := rfl

/-- … so a sum over it is the triple sum over the coordinates. -/
theorem sum_idx3 {a b c : Nat} (f : (⟨3, ![a, b, c]⟩ : Shape).Idx → M) :
    ∑ i, f i = ∑ p : Fin a, ∑ q : Fin b, ∑ r : Fin c, f (ix3 p q r) := by
  rw [← Equiv.sum_comp (idxEquiv3 (a := a) (b := b) (c := c)).symm f, Fintype.sum_prod_type]
  refine Finset.sum_congr rfl fun p _ => ?_
  rw [Fintype.sum_prod_type]
  rfl

/-- The sum over a [B, N, D] array is the sum over `b` of the sums over slab `b`, a [1, N, D] array. -/
theorem sum_slabs {B N D : Nat} (f : (⟨3, ![B, N, D]⟩ : Shape).Idx → M) :
    ∑ j, f j = ∑ b : Fin B, ∑ i : (⟨3, ![1, N, D]⟩ : Shape).Idx, f (ix3 b (i 1) (i 2)) := by
  rw [sum_idx3]
  refine Finset.sum_congr rfl fun b _ => ?_
  rw [sum_idx3, Fin.sum_univ_one]
  rfl

/-- A sum over [B, 1, D] of a function of the two outer coordinates is its sum over [B, D]. -/
theorem sum_keepdim {B D : Nat} (g : Fin B → Fin D → M) :
    ∑ j : (⟨3, ![B, 1, D]⟩ : Shape).Idx, g (j 0) (j 2) = ∑ j : (⟨2, ![B, D]⟩ : Shape).Idx, g (j 0) (j 1) := by
  rw [sum_idx3, sum_idx2]
  refine Finset.sum_congr rfl fun b _ => ?_
  rw [Fin.sum_univ_one]
  rfl

/-- The sum over the [1, N, D] slab as the double sum over its two long coordinates. -/
theorem sum_slab {N D : Nat} (f : (⟨3, ![1, N, D]⟩ : Shape).Idx → M) :
    ∑ i, f i = ∑ q : Fin N, ∑ r : Fin D, f (ix3 0 q r) := by
  rw [sum_idx3, Fin.sum_univ_one]

/-- A running total: from `z + u 0`, adding `u (n + 1)` at step `n + 1`, step `n` holds `z + (u 0 + … + u n)`. -/
theorem chain_eq_sum (N : ℕ) (z : M) (u : Fin N → M) (t : (n : ℕ) → n < N → M)
    (h0 : ∀ h, t 0 h = z + u ⟨0, h⟩)
    (hs : ∀ n (h : n + 1 < N), t (n + 1) h = t n (Nat.lt_of_succ_lt h) + u ⟨n + 1, h⟩) :
    ∀ (n : ℕ) (h : n < N), t n h = z + ∑ k : Fin (n + 1), u ⟨k.val, lt_of_lt_of_le k.isLt h⟩
  | 0, h => by rw [h0, Fin.sum_univ_one]; rfl
  | n + 1, h => by
    rw [hs, chain_eq_sum N z u t h0 hs n (Nat.lt_of_succ_lt h), Fin.sum_univ_castSucc (n := n + 1), add_assoc]
    rfl

end Cert.SumLaws

end
-- ==== Proof.IdealValue.lean ====
/-
  The idealized kernel's two scalars over the extended reals, as sums over the argument array `x` of shape
  [32, 8192, 128].

  At the ideal instance a lane reduction is the plain sum of what it reduces, the host's reduction is its initial value
  plus that sum, the zero word is the number 0, and a shape cast only renames indices. So
    · the column-sum payload of a block, at `(0, 0, d)`, is `Σₙ block (0, n, d)`;
    · the scratch update is the old scratch plus `Σᵢ block i · block i` over the whole [1, 8192, 128] block, and the
      reset stores 0;
    · the input block of the point of batch coordinate `b`, at `i`, is `x (b, i₁, i₂)`.
  Hence the running sum after the last point is `0 + Σ_b Σᵢ x (b, i₁, i₂)²`, which is `0 + Σⱼ xⱼ²` over the whole array
  (a sum over the array is the sum of the sums over its 32 slabs), and the host's sum of the squared column sums over
  [32, 1, 128] is `0 + Σ_{(b, d)} (Σₙ x (b, n, d))²` over [32, 128] (a kept unit axis carries no entries of its own).
  Only commutativity and associativity of `+` on the extended reals are used; no input need be finite.
-/
import proofs.«100261_j89867895702076_1_alg».proof.Proof.KernelRun
import proofs.«100261_j89867895702076_1_alg».proof.Proof.SumLaws
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem

namespace Cert.KernelIdeal.IdealValue

open Cert.KernelIdeal Cert.KernelIdeal.Gen Cert.KernelIdeal.Acc Cert.KernelIdeal.Arrays Cert.KernelIdeal.KRun
open Idealize.ShloMosaic.ValueIdx Cert.SumLaws

/-! ## The payloads at an index -/

/-- A shape cast read at an index, and a static extraction, by definition. -/
theorem shapeCast_eval {s t : Shape} {α : Type} (x : s.Idx → α) (h : s.ShapeCasts t) (j : t.Idx) :
    shapeCast t x h j = x (Shape.reshapeEquiv h j) := rfl
theorem extractAt_eval {s : Shape} {α : Type} (pos : Fin s.rank → Nat) (x : s.Idx → α) (h : ∀ a, pos a < s.size a) :
    extractAt pos x h = x (fun a => ⟨pos a, h a⟩) := rfl

/-- The column sums of a block: entry `(0, 0, d)` is the sum over the 8192 rows of column `d`. -/
theorem pay1_apply (x : Vec Ideal S1x8192x128 .f32) (d : Fin 128) :
    k0_pay1 (F := Ideal) x (ix3 0 0 d) = ∑ n : Fin 8192, x (ix3 0 n d) := by
  unfold k0_pay1
  refine (shapeCast_ab_1ab_apply _ _ 0 0 d).trans ?_
  refine (Ideal.multiReduction_add_single _ _ _ _ _ (ix2 0 d)).trans ?_
  exact Finset.sum_congr rfl fun k _ => congrArg x (funext fun a => Fin.ext (by match a with | ⟨0, _⟩ => rfl | ⟨1, _⟩ => rfl | ⟨2, _⟩ => rfl))

/-- The reset stores the number zero. -/
theorem pay2_apply (y : S1x1.Idx) : k0_pay2 (F := Ideal) y = (0 : EReal) := by
  unfold k0_pay2
  rw [shapeCast_self]
  exact Ideal.ofBits_zero_f32

/-- The scratch update: the old scratch plus the sum of the squares of every entry of the block. -/
theorem pay3_apply (x : Vec Ideal S1x8192x128 .f32) (s : Vec Ideal S1x1 .f32) (y : S1x1.Idx) :
    k0_pay3 (F := Ideal) x s y = (s y : EReal) + ∑ i : S1x8192x128.Idx, (x i : EReal) * x i := by
  unfold k0_pay3
  rw [shapeCast_self, addf_apply, broadcast_apply, extractAt_eval, shapeCast_eval]
  rw [Ideal.multiReduction_add_total (shapeCast S1x1x8192x128 (mulf x x) shapeCasts_S1x8192x128_S1x1x8192x128) 0x00000000#32 reduces_S1x1x8192x128_S1 (by decide) (.inl rfl) rfl]
  refine congrArg ((s y : EReal) + ·) ?_
  exact Equiv.sum_comp (Shape.reshapeEquiv shapeCasts_S1x8192x128_S1x1x8192x128) (fun i => (x i : EReal) * x i)

/-! ## The input blocks are the slabs of the argument -/

variable (m : (ℓ : Loc nD τ sig) → Buf (Elt Ideal) ℓ)

/-- The argument array. -/
abbrev arg (c : Dev nD) : S32x8192x128.Idx → EReal := m ((c : Thread nD τ).loc main_arg0)

/-- The input window's block index at point `t` is `(t, 0, 0)`: decided over the grid. -/
theorem idx_facts0 : ∀ t : Fin cfg0.N, win0_0.index t (0 : Fin 3) = t.val ∧ win0_0.index t (1 : Fin 3) = 0
    ∧ win0_0.index t (2 : Fin 3) = 0 :=
  (by decide +kernel : ∀ t : Fin grid0.N, _)

/-- The input block of the point of batch coordinate `b`, at `i`, is the argument at `(b, i₁, i₂)`. -/
theorem xblk_apply (c : Dev nD) (b : Fin 32) (i : S1x8192x128.Idx) :
    xblk m c (pt b) i = arg m c (ix3 b (i 1) (i 2)) := by
  obtain ⟨e0, e1, e2⟩ := idx_facts0 (pt b)
  show (iblk m c 0 (pt b) : Vec Ideal S1x8192x128 .f32) i = _
  unfold iblk
  rw [View.read_apply]
  have e0' : win0_0.index (pt b) (0 : Fin 3) = b.val := e0
  have hi0 : (i 0).val < 1 := (i 0).isLt
  show (m ((c : Thread nD τ).loc main_arg0) : S32x8192x128.Idx → Ideal .f32) (((cfg0.win 0).blk (pt b)).view.emb i) = _
  congr 1
  funext a
  apply Fin.ext
  match a with
  | ⟨0, _⟩ => show win0_0.index (pt b) (0 : Fin 3) * 1 + 1 * (i 0).val = b.val; omega
  | ⟨1, _⟩ => show win0_0.index (pt b) (1 : Fin 3) * 8192 + 1 * (i 1).val = (i 1).val; omega
  | ⟨2, _⟩ => show win0_0.index (pt b) (2 : Fin 3) * 128 + 1 * (i 2).val = (i 2).val; omega

/-! ## The total of the squares -/

/-- The sum of the squares of the input block of point `t`. -/
abbrev sq (c : Dev nD) (t : Fin cfg0.N) : EReal := ∑ i : S1x8192x128.Idx, (xblk m c t i : EReal) * xblk m c t i

/-- After point `n` the scratch holds zero plus the block totals of the points up to `n`. -/
theorem acc_apply (c : Dev nD) (y : S1x1.Idx) : ∀ (n : ℕ) (h : n < cfg0.N),
    (acc m c n h y : EReal) = 0 + ∑ k : Fin (n + 1), sq m c ⟨k.val, lt_of_lt_of_le k.isLt h⟩ :=
  chain_eq_sum cfg0.N (0 : EReal) (fun t => sq m c t) (fun n h => (acc m c n h y : EReal))
    (fun h => by rw [acc_zero, pay3_apply, pay2_apply])
    (fun n h => by rw [acc_succ, pay3_apply])

/-- The second output array holds zero plus the sum of the squares of every entry of the argument. -/
theorem total_apply (c : Dev nD) (y : S1x1.Idx) :
    (total m c y : EReal) = 0 + ∑ j : S32x8192x128.Idx, arg m c j * arg m c j := by
  have h' : (total m c y : EReal) = 0 + ∑ b : Fin 32, sq m c (pt b) := acc_apply m c y tlast.val tlast.isLt
  rw [h', sum_slabs (fun j => arg m c j * arg m c j)]
  refine congrArg ((0 : EReal) + ·) (Finset.sum_congr rfl fun b _ => Finset.sum_congr rfl fun i _ => ?_)
  rw [xblk_apply]

/-- The scalar the host reads from it. -/
theorem sumSq_apply (c : Dev nD) (i : S_.Idx) :
    (sumSq m c i : EReal) = 0 + ∑ j : S32x8192x128.Idx, arg m c j * arg m c j := by
  show (shapeCast S_ (total m c) shapeCasts_S1x1_S_ i : EReal) = _
  rw [shapeCast_eval, total_apply]

/-! ## The squared column sums -/

/-- The first output array at `(b, 0, d)`: the sum over the rows of column `d` of slab `b`. -/
theorem cols_apply (c : Dev nD) (j : S32x1x128.Idx) :
    (cols m c j : EReal) = ∑ n : Fin 8192, arg m c (ix3 (j 0) n (j 2)) := by
  obtain ⟨b, u, d, rfl⟩ : ∃ (b : Fin 32) (u : Fin 1) (d : Fin 128), j = ix3 b u d := ⟨j 0, j 1, j 2, eq_ix3 j⟩
  show k0_pay1 (F := Ideal) (xblk m c (pt b)) (ix3 0 0 d) = ∑ n : Fin 8192, arg m c (ix3 b n d)
  rw [pay1_apply]
  refine Finset.sum_congr rfl fun n _ => ?_
  rw [xblk_apply]

/-- The host's sum of a [32, 1, 128] array from the zero word: zero plus the sum of its entries. -/
theorem reduce_all (y0 : FVec Ideal S32x1x128 .f32) (i : S_.Idx) :
    (Host.reduceAdd y0 (constant S_ .f32 0x00000000#32) reducesTo_S32x1x128_S_d0_1_2 h_S_ i : EReal)
      = 0 + ∑ j : S32x1x128.Idx, (y0 j : EReal) := by
  simp only [Host.reduceAdd, Ideal.hostReduceAdd_def]
  rw [Ideal.hostReduceAdd_total reducesTo_S32x1x128_S_d0_1_2 (fun b => b.elim0) y0 _ i, constant_apply,
    Ideal.ofBits_zero_f32]

/-- The sum of the squared column sums: over [32, 128], the square of each column's sum over the rows. -/
theorem sumColSq_apply (c : Dev nD) (i : S_.Idx) :
    (sumColSq m c i : EReal) = 0 + ∑ j : (⟨2, ![32, 128]⟩ : Shape).Idx,
      (∑ n : Fin 8192, arg m c (ix3 (j 0) n (j 1))) * (∑ n : Fin 8192, arg m c (ix3 (j 0) n (j 1))) := by
  refine (reduce_all (mulf (cols m c) (cols m c)) i).trans ?_
  refine congrArg ((0 : EReal) + ·) ?_
  rw [← sum_keepdim (fun (b : Fin 32) (d : Fin 128) => (∑ n : Fin 8192, arg m c (ix3 b n d)) * (∑ n : Fin 8192, arg m c (ix3 b n d)))]
  refine Finset.sum_congr rfl fun j _ => ?_
  rw [mulf_apply, cols_apply]

end Cert.KernelIdeal.IdealValue

end
-- ==== Proof.Bridge.lean ====
/-
  The reference computes the same two scalars, and so the same result.

  The reference squares the argument `x` entry by entry and adds everything up from zero — `0 + Σⱼ xⱼ²` over
  [32, 8192, 128] — and adds each column of each slab over its 8192 rows from zero, squares those [32, 128] sums and
  adds them up from zero — `0 + Σ_{(b, d)} (0 + Σₙ x (b, n, d))²`. With `0 + s = s` these are, term for term, the two
  sums the idealized kernel's scalars were shown to be; both programs then apply the same closing arithmetic to them.
-/
import proofs.«100261_j89867895702076_1_alg».proof.Proof.IdealValue
import proofs.«100261_j89867895702076_1_alg».proof.Proof.Gen.ReferenceIdeal.Read

noncomputable section

open scoped BigOperators
open Idealize.ShloMosaic Idealize.ShloMosaic.TcCoe Idealize.SL.Sem

namespace Cert.ReferenceIdeal.RefValue

open Cert.ReferenceIdeal Cert.ReferenceIdeal.Read Idealize.ShloMosaic.ValueIdx

/-- The reference's total of the squares. -/
theorem sumSq_apply (x : S32x8192x128.Idx → EReal) (i : S_.Idx) :
    (val_main_v1 (F := Ideal) x i : EReal) = 0 + ∑ j : S32x8192x128.Idx, x j * x j := by
  rw [val_main_v1_apply, val_main_cst_apply]
  exact congrArg (· + ∑ j : S32x8192x128.Idx, x j * x j) Ideal.ofBits_zero_f32

/-- The row the reference's column sum reads at `(b, d)` and `k` is `(b, k, d)`. -/
theorem idx_v2 (j : S32x128.Idx) (k : Fin 8192) : idx_main_v2 j k = ix3 (j 0) k (j 1) :=
  funext fun a => by match a with | ⟨0, _⟩ => rfl | ⟨1, _⟩ => rfl | ⟨2, _⟩ => rfl

/-- The reference's column sums: zero plus the sum over the rows. -/
theorem colSum_apply (x : S32x8192x128.Idx → EReal) (j : S32x128.Idx) :
    (val_main_v2 (F := Ideal) x j : EReal) = ∑ k : Fin 8192, x (ix3 (j 0) k (j 1)) := by
  rw [val_main_v2_apply, val_main_cst_0_apply]
  refine (congrArg (· + ∑ k : Fin 8192, x (idx_main_v2 j k)) Ideal.ofBits_zero_f32).trans ?_
  rw [zero_add]
  exact Finset.sum_congr rfl fun k _ => congrArg x (idx_v2 j k)

/-- The reference's sum of the squared column sums. -/
theorem sumColSq_apply (x : S32x8192x128.Idx → EReal) (i : S_.Idx) :
    (val_main_v5 (F := Ideal) x i : EReal) = 0 + ∑ j : S32x128.Idx,
      (∑ k : Fin 8192, x (ix3 (j 0) k (j 1))) * (∑ k : Fin 8192, x (ix3 (j 0) k (j 1))) := by
  rw [val_main_v5_apply, val_main_cst_2_apply]
  refine (congrArg (· + ∑ j : S32x128.Idx, val_main_v4 (F := Ideal) x j) Ideal.ofBits_zero_f32).trans ?_
  refine congrArg ((0 : EReal) + ·) (Finset.sum_congr rfl fun j _ => ?_)
  rw [val_main_v4_apply]
  show (val_main_v2 (F := Ideal) x j : EReal) * val_main_v2 (F := Ideal) x j = _
  rw [colSum_apply]

/-- The reference's result is the closing arithmetic of its two scalars. -/
theorem result_loss (x : S32x8192x128.Idx → EReal) :
    val_main_v10 (F := Ideal) x = Cert.Loss.loss (F := Ideal) (val_main_v1 (F := Ideal) x) (val_main_v5 (F := Ideal) x) := by
  unfold val_main_v10 val_main_v9 val_main_v8 val_main_v7 val_main_v6 val_main_v3 val_main_cst_5 val_main_cst_4
    val_main_cst_3 val_main_cst_1 Cert.Loss.loss
  rfl

/-- The reference's result, on the kernel's argument array, is the kernel's result. -/
theorem result_eq (m : (ℓ : Loc Cert.KernelIdeal.nD Cert.KernelIdeal.τ Cert.KernelIdeal.sig) → Buf (Elt Ideal) ℓ)
    (c : Dev Cert.KernelIdeal.nD) :
    val_main_v10 (F := Ideal) (Cert.KernelIdeal.IdealValue.arg m c)
      = Cert.Loss.loss (F := Ideal) (Cert.KernelIdeal.KRun.sumSq m c) (Cert.KernelIdeal.KRun.sumColSq m c) := by
  have ha : val_main_v1 (F := Ideal) (Cert.KernelIdeal.IdealValue.arg m c) = Cert.KernelIdeal.KRun.sumSq m c :=
    funext fun i => (sumSq_apply _ i).trans (Cert.KernelIdeal.IdealValue.sumSq_apply m c i).symm
  have hb : val_main_v5 (F := Ideal) (Cert.KernelIdeal.IdealValue.arg m c) = Cert.KernelIdeal.KRun.sumColSq m c :=
    funext fun i => (sumColSq_apply _ i).trans (Cert.KernelIdeal.IdealValue.sumColSq_apply m c i).symm
  exact (result_loss _).trans (congrArg₂ (Cert.Loss.loss (F := Ideal)) ha hb)

end Cert.ReferenceIdeal.RefValue

end
-- ==== Proof.lean ====
/-
  The separation loss of a batch of keypoint sets, computed two ways, is one number.

  For `x` of shape [B, N, D] = [32, 8192, 128] both programs compute

      exp (c · ((2N · Σ_{b,n,d} x² − 2 · Σ_{b,d} (Σₙ x_{b,n,d})²) / (B · N · D))),      c the float nearest −1e−9,

  the closed form of Σ_{b,d} Σ_{i,j} (x_{b,i,d} − x_{b,j,d})² by the pairwise identity. The reference takes the two sums
  with whole-array reductions. The kernel walks the batch axis: at grid point `b` it loads slab `b`, writes the slab's
  column sums Σₙ x_{b,n,d} to row `b` of a [32, 1, 128] output, and adds the slab's sum of squares into a [1, 1] scratch
  that it zeroes at the first point and copies to a [1, 1] output at the last; the host then squares and sums the
  column sums and applies the same closing arithmetic as the reference.

  Over the extended reals, with every operation exact, the two agree because a sum over the array is the sum of the
  sums over its slabs, taken in any order, and a kept unit axis adds no entries: only commutativity and associativity
  of `+` are used, so the finiteness of the inputs is never opened. The modules, in order: the closing arithmetic as one
  function (Loss); the re-indexings of finite sums (SumLaws); what one run of the body leaves in its buffers (Pieces);
  the buffers after each point, by induction on the point (Acc); the two output arrays after the region (Arrays); the
  host operations after the region and the run (KernelRun); the two scalars as sums over `x` (IdealValue); the
  reference's scalars, the same sums (Bridge). The ideal pass rewrote nothing, so `preserves` is `True`; the word-level
  kernel and the idealized one terminate with their argument unchanged by the generated frames, and the reference by
  its generated run.
-/
import proofs.«100261_j89867895702076_1_alg».proof.Defs
import proofs.«100261_j89867895702076_1_alg».proof.Proof.Gen.Kernel
import proofs.«100261_j89867895702076_1_alg».proof.Proof.Gen.Kernel.Skeleton
import proofs.«100261_j89867895702076_1_alg».proof.Proof.Gen.Kernel.Launch
import proofs.«100261_j89867895702076_1_alg».proof.Proof.Gen.Kernel.Points
import proofs.«100261_j89867895702076_1_alg».proof.Proof.Gen.Kernel.Frame
import proofs.«100261_j89867895702076_1_alg».proof.Proof.Gen.KernelIdeal
import proofs.«100261_j89867895702076_1_alg».proof.Proof.Gen.KernelIdeal.Skeleton
import proofs.«100261_j89867895702076_1_alg».proof.Proof.Gen.KernelIdeal.Launch
import proofs.«100261_j89867895702076_1_alg».proof.Proof.Gen.KernelIdeal.Points
import proofs.«100261_j89867895702076_1_alg».proof.Proof.Gen.KernelIdeal.Frame
import proofs.«100261_j89867895702076_1_alg».proof.Proof.Gen.ReferenceIdeal
import proofs.«100261_j89867895702076_1_alg».proof.Proof.Gen.Pre_finite_inputs
import proofs.«100261_j89867895702076_1_alg».proof.Proof.Gen.ReferenceIdeal.Run
import proofs.«100261_j89867895702076_1_alg».proof.Proof.Gen.ReferenceIdeal.Read
import proofs.«100261_j89867895702076_1_alg».proof.Proof.Bridge
import Idealize.ShloMosaic.Adequacy
import Idealize.ShloMosaic.Init

noncomputable section

namespace Cert.Proof

open Idealize.ShloMosaic Idealize.SL.Sem

/-- The word-level kernel terminates, faults nowhere, and leaves its argument as it found it. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- So does the reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on `x`, the idealized kernel and the reference both end at
    `exp (c · ((16384 · Σ x² − 2 · Σ (Σₙ x)²) / 2^25))`. -/
theorem algebraic : Cert.algebraic_KernelIdeal_ReferenceIdeal := by
  intro m ρ m' ρ' _ hagree
  refine ⟨fun c => Cert.Loss.loss (F := Ideal) (Cert.KernelIdeal.KRun.sumSq m c) (Cert.KernelIdeal.KRun.sumColSq m c),
    Cert.KernelIdeal.KRun.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [hagree c]
  exact (Cert.ReferenceIdeal.Read.val_main_v10_eq _).trans (Cert.ReferenceIdeal.RefValue.result_eq m c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
